-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S4x2048x4096 .f32) (main_arg1 : FVec F S4096x4096 .f32) (main_arg2 : FVec F S4096x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S8192x4096 : Shape := ⟨2, ![8192, 4096]⟩
abbrev S1024x1024 : Shape := ⟨2, ![1024, 1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x1, .f32⟩
  | .hbm, ⟨3, _⟩ => ⟨S8192x4096, .f32⟩
  | .hbm, ⟨4, _⟩ => ⟨S8192x4096, .f32⟩
  | .hbm, ⟨5, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .f32⟩
  | .local _ .vmem, ⟨5, _⟩ => ⟨S1024x1, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  broadcasts_S1024x1_S1024x1024 : S1024x1.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x1, .f32⟩
  | .hbm, ⟨3, _⟩ => ⟨S4096x4096, .f32⟩
  | .hbm, ⟨4, _⟩ => ⟨S4096x4096, .f32⟩
  | .hbm, ⟨5, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one grid point leaves behind, as values.

  The body keeps a 1024×1024 accumulator in scratch memory across the four points of a reduction run. At the run's first
  point it clears the accumulator and then adds that point's tile product to it; at the later points it adds the point's
  tile product to what the point before left; at the run's last point it also copies the accumulator into the output
  block. Here each of these is read back as ONE pure term: the accumulator update `k0_pay2 x w s acc` of the three input
  blocks and the accumulator's earlier contents (`k0_pay1`, the zero block, at a run's first point).
-/
import proofs.«141935_j51900384804990_1_alg».proof.Proof.Gen.KernelIdeal.Frame
import Idealize.ShloMosaic.Lib.Pipeline.Value
import Idealize.ShloMosaic.Lib.Tactic

set_option maxRecDepth 16384

noncomputable section

namespace Cert.KernelIdeal.Tile

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A run's first point: the accumulator is cleared, read back, and the point's tile product added to the zero block. -/
theorem scratch_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 x1 : Vec F S1024x1024 .f32) (x2 : Vec F S1024x1 .f32) :
    sout0_A_0 c i a3 h3 a4 h4 a5 h5 a6 h6 a7 h7 hc0 hc1 x0 x1 x2 = k0_pay2 x0 x1 x2 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread,
    View.ld_unit_zero (S := S1024x1024) hz, View.ld_unit_zero (S := S1024x1) hz]

/-- A later point that is not the run's last: the point's tile product is added to what the point before left. -/
theorem scratch_middle (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i) (x0 x1 : Vec F S1024x1024 .f32) (x2 : Vec F S1024x1 .f32) (acc : Vec F S1024x1024 .f32) :
    sout0_B_0 c i a3 h3 a4 h4 a5 h5 a6 h6 a7 h7 hc0 hc1 x0 x1 x2 acc = k0_pay2 x0 x1 x2 acc := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero hz]
  simp only [View.readAt_eq_ld, h3.read_unread, h4.read_unread, h5.read_unread, h7.read_unread,
    View.ld_unit_zero (S := S1024x1024) hz, View.ld_unit_zero (S := S1024x1) hz]

/-- A run's last point leaves the accumulator updated in the same way, -/
theorem scratch_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .f32) (x2 : Vec F S1024x1 .f32) (acc : Vec F S1024x1024 .f32) :
    sout0_C_0 c i a3 h3 a4 h4 a5 h5 a6 h6 a7 h7 hc0 hc1 x0 x1 x2 acc = k0_pay2 x0 x1 x2 acc := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero hz]
  simp only [View.readAt_eq_ld, h3.read_unread, h4.read_unread, h5.read_unread, h7.read_unread,
    View.ld_unit_zero (S := S1024x1024) hz, View.ld_unit_zero (S := S1024x1) hz]

/-- and stores the updated accumulator, read back whole, into the output block. -/
theorem output_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .f32) (x2 : Vec F S1024x1 .f32) (acc : Vec F S1024x1024 .f32) :
    out0_C_3 c i a3 h3 a4 h4 a5 h5 a6 h6 a7 h7 hc0 hc1 x0 x1 x2 acc = k0_pay2 x0 x1 x2 acc := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero hz]
  simp only [View.readAt_eq_ld, h3.read_unread, h4.read_unread, h5.read_unread, h7.read_unread,
    View.ld_unit_zero (S := S1024x1024) hz, View.ld_unit_zero (S := S1024x1) hz,
    View.readCov_unit_zero (S := S1024x1024) _ hz]

end Cert.KernelIdeal.Tile

end
-- ==== Proof.LibProductNT.lean ====
/-
  A matrix times the transpose of another, over the extended reals.

  Entry (a, b) of A·Bᵀ, for an r×k matrix A and an n×k matrix B, is the sum over the shared column coordinate c of
  A(a, c) · B(b, c). Addition of extended reals is commutative and associative, so this is a plain finite sum: no order
  of summation is left in it and nothing asks that an entry be finite.

  The matrix unit forms such a product (both operands contracted along axis 1) and adds it to an accumulator; into a zero
  accumulator it leaves exactly that entry (`matmul_zero_apply`), whatever float formats the factors were narrowed to on
  the way, a change of format being the identity at the ideal values.

  A long row splits into consecutive stretches of equal length: a sum over m·n columns is the sum over the m stretches of
  the sums over each stretch's n columns (`sum_stretches`).
-/
import Idealize.ShloMosaic.Lib.ValueIdx
import Idealize.ShloMosaic.PureOps.Ideal.Laws
import Mathlib.Algebra.BigOperators.Fin
import Mathlib.Logic.Equiv.Fin.Basic

noncomputable section

namespace ProductNT

open Idealize.ShloMosaic Idealize.ShloMosaic.ValueIdx

variable {r k n : Nat}

/-- Entry (a, b) of A·Bᵀ. -/
def entry (A : (⟨2, ![r, k]⟩ : Shape).Idx → EReal) (B : (⟨2, ![n, k]⟩ : Shape).Idx → EReal) (a : Fin r) (b : Fin n) : EReal :=
  ∑ c : Fin k, A (ix2 a c) * B (ix2 b c)

/-- The matrix unit's product of an r×k by an n×k operand, both contracted along their second axis, accumulated into a
    zero block and read at (a, b), is that entry. -/
theorem matmul_zero_apply {φ₁ φ₂ : FTy}
    (w : DotDims.WF ⟨2, ![r, k]⟩ ⟨2, ![n, k]⟩ ⟨2, ![r, n]⟩ [1] [1] [0] [0] [] [])
    (prec : Option ContractPrecision) (A : FVec Ideal ⟨2, ![r, k]⟩ φ₁) (B : FVec Ideal ⟨2, ![n, k]⟩ φ₂) (a : Fin r) (b : Fin n) :
    matmul (⟨[1], [1], [0], [0], [], [], w⟩ : DotDims _ _ _) prec A B (constant (F := Ideal) ⟨2, ![r, n]⟩ .f32 0x00000000#32) (ix2 a b)
      = entry A B a b := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![r, k]⟩ ⟨2, ![n, k]⟩ ⟨2, ![r, n]⟩) k rfl rfl c
  have l2 : (⟨[1], [1], [0], [0], [], [], w⟩ : DotDims ⟨2, ![r, k]⟩ ⟨2, ![n, k]⟩ ⟨2, ![r, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![r, k]⟩ ⟨2, ![n, k]⟩ ⟨2, ![r, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A sum over m·n consecutive columns is the sum, over the m stretches of n columns, of each stretch's sum. -/
theorem sum_stretches {M : Type*} [AddCommMonoid M] (m n : Nat) (f : Fin (m * n) → M) :
    ∑ c : Fin (m * n), f c
      = ∑ s : Fin m, ∑ j : Fin n, f ⟨s.val * n + j.val, by
          have hs := s.isLt; have hj := j.isLt
          calc s.val * n + j.val < s.val * n + n := by omega
            _ = (s.val + 1) * n := by ring
            _ ≤ m * n := Nat.mul_le_mul_right n hs⟩ := by
  rw [← Equiv.sum_comp finProdFinEquiv f, Fintype.sum_prod_type]
  refine Finset.sum_congr rfl fun s _ => Finset.sum_congr rfl fun j _ => congrArg f (Fin.ext ?_)
  show j.val + n * s.val = s.val * n + j.val
  rw [Nat.mul_comm, Nat.add_comm]

end ProductNT

end
-- ==== Proof.TileProduct.lean ====
/-
  The accumulator update at an entry, over the extended reals.

  With x the 1024×1024 block of activations, w the 1024×1024 block of weights and s the 1024×1 block of row scales, the
  update adds to entry (p, q) of the accumulator the sum over kk of x(p, kk) · (w(q, kk) · s(q, 0)): row q of the weight
  block is scaled by its own scale before the product, both operands are narrowed to bf16 (the identity at the ideal
  values) and the matrix unit contracts the second axis of each. The zero block reads zero everywhere.
-/
import proofs.«141935_j51900384804990_1_alg».proof.Proof.Gen.KernelIdeal.Skeleton
import proofs.«141935_j51900384804990_1_alg».proof.Proof.LibProductNT
import Idealize.ShloMosaic.Lib.Pipeline.Value
import Idealize.ShloMosaic.Lib.ValueIdx

noncomputable section

namespace Cert.KernelIdeal.Tile

open Idealize.ShloMosaic Idealize.ShloMosaic.ValueIdx
open Cert.KernelIdeal Cert.KernelIdeal.Gen

/-- The cleared accumulator reads zero at every entry. -/
theorem cleared_apply (j : S1024x1024.Idx) : k0_pay1 (F := Ideal) j = 0 := by
  unfold k0_pay1
  simp only [shapeCast_self]
  exact Ideal.ofBits_zero_f32

/-- One accumulator update, read at entry (p, q). -/
theorem update_apply (x0 x1 : Vec Ideal S1024x1024 .f32) (x2 : Vec Ideal S1024x1 .f32) (acc : Vec Ideal S1024x1024 .f32)
    (p q : Fin 1024) :
    k0_pay2 (F := Ideal) x0 x1 x2 acc (ix2 p q)
      = acc (ix2 p q) + ∑ kk : Fin 1024, x0 (ix2 p kk) * (x1 (ix2 q kk) * x2 (ix2 q (0 : Fin 1))) := by
  unfold k0_pay2
  simp only [shapeCast_self]
  refine (addf_apply _ _ _).trans ?_
  refine congrArg (acc (ix2 p q) + ·) ?_
  refine (ProductNT.matmul_zero_apply (r := 1024) (k := 1024) (n := 1024)
    Facts₀.dot_S1024x1024_S1024x1024_S1024x1024_1_1_0_0_n_n_wf none _ _ p q).trans ?_
  unfold ProductNT.entry
  refine Finset.sum_congr rfl fun kk _ => ?_
  show x0 (ix2 p kk) * (x1 (ix2 q kk) * broadcastTo S1024x1024 x2 Facts₀.broadcasts_S1024x1_S1024x1024 (ix2 q kk)) = _
  refine congrArg (fun z => x0 (ix2 p kk) * (x1 (ix2 q kk) * z)) ?_
  exact broadcastTo_apply x2 Facts₀.broadcasts_S1024x1_S1024x1024 (ix2 q kk) (ix2 q (0 : Fin 1)) (fun a => by
    match a with
    | ⟨0, _⟩ => show q.val = if (1024 : Nat) = 1 then 0 else q.val; rw [if_neg (by decide)]
    | ⟨1, _⟩ => show 0 = if (1 : Nat) = 1 then 0 else kk.val; rw [if_pos rfl])

end Cert.KernelIdeal.Tile

end
-- ==== Proof.Accumulate.lean ====
/-
  The accumulator across a reduction run, and the output array after the whole grid.

  The grid has 8 × 4 × 4 points (i, j, s), the last coordinate fastest: point t has i = t / 16, j = t / 4 mod 4 and
  s = t mod 4. Point t reads rows 1024·i … of the activations X (8192×4096) at columns 1024·s …, rows 1024·j … of the
  weights W (4096×4096) at the same columns, and rows 1024·j … of the scales S (4096×1). Its tile product adds to entry
  (p, q) of the accumulator

      T(i, j, s)(p, q) = Σ_kk X(1024·i + p, 1024·s + kk) · (W(1024·j + q, 1024·s + kk) · S(1024·j + q, 0)).

  After point t the accumulator therefore holds the sum of T(i, j, s') over the stretches s' ≤ s of the run (by induction
  on the point); at the run's last point, s = 3, that is the sum over all four stretches, which is the sum over all 4096
  columns: entry (1024·i + p, 1024·j + q) of X·(W scaled row by row by S)ᵀ. That point writes its block back, the blocks
  of the 32 runs tile the output array, and so the array ends holding that product everywhere.

  Addition of extended reals is commutative and associative, so regrouping the sum needs no finiteness.
-/
import proofs.«141935_j51900384804990_1_alg».proof.Proof.Pieces
import proofs.«141935_j51900384804990_1_alg».proof.Proof.TileProduct

set_option maxRecDepth 16384

noncomputable section

namespace Cert.KernelIdeal.Tile

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-! ## The arrays and the blocks, at their literal types -/

/-- The activations as the kernel finds them (8192×4096), the weights and the row scales. -/
abbrev xArr (c : Dev nD) : Vec Ideal S8192x4096 .f32 := V m c main_v0
abbrev wArr (c : Dev nD) : Vec Ideal S4096x4096 .f32 := V m c main_arg1
abbrev sArr (c : Dev nD) : Vec Ideal S4096x1 .f32 := V m c main_arg2

/-- The three input blocks of point `t`. -/
abbrev xBlk (c : Dev nD) (t : Fin cfg0.N) : Vec Ideal S1024x1024 .f32 := iblk m c 0 t
abbrev wBlk (c : Dev nD) (t : Fin cfg0.N) : Vec Ideal S1024x1024 .f32 := iblk m c 1 t
abbrev sBlk (c : Dev nD) (t : Fin cfg0.N) : Vec Ideal S1024x1 .f32 := iblk m c 2 t

/-- Row p of row block i; output column (weight row) q of block j; column kk of stretch s. -/
def rowOf (i : Fin 8) (p : Fin 1024) : Fin 8192 := ⟨i.val * 1024 + p.val, by have := i.isLt; have := p.isLt; omega⟩
def outOf (j : Fin 4) (q : Fin 1024) : Fin 4096 := ⟨j.val * 1024 + q.val, by have := j.isLt; have := q.isLt; omega⟩
def colOf (s : Fin 4) (kk : Fin 1024) : Fin 4096 := ⟨s.val * 1024 + kk.val, by have := s.isLt; have := kk.isLt; omega⟩

/-- The block indices of the four windows at point t, decided over the grid. -/
theorem index_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 4 % 4 ∧ win0_2.index t (1 : Fin 2) = 0
    ∧ win0_3.index t (0 : Fin 2) = t.val / 16 ∧ win0_3.index t (1 : Fin 2) = t.val / 4 % 4 :=
  (by decide +kernel : ∀ t : Fin grid0.N, _)

/-- The activation block of point t reads X at rows 1024·i + p and columns 1024·s + kk. -/
theorem xBlk_apply (c : Dev nD) (t : Fin cfg0.N) (i : Fin 8) (s : Fin 4) (hi : i.val = t.val / 16) (hs : s.val = t.val % 4)
    (p kk : Fin 1024) : xBlk m c t (ix2 p kk) = xArr m c (ix2 (rowOf i p) (colOf s kk)) := by
  obtain ⟨e0, e1, -⟩ := index_facts t
  show iblk m c 0 t (ix2 p kk) = _
  unfold iblk
  rw [View.read_apply]
  show V m c main_v0 _ = V m c main_v0 _
  congr 1
  funext a
  apply Fin.ext
  match a with
  | ⟨0, _⟩ => show win0_0.index t (0 : Fin 2) * 1024 + 1 * p.val = i.val * 1024 + p.val; rw [e0, hi]; omega
  | ⟨1, _⟩ => show win0_0.index t (1 : Fin 2) * 1024 + 1 * kk.val = s.val * 1024 + kk.val; rw [e1, hs]; omega

/-- The weight block of point t reads W at rows 1024·j + q and columns 1024·s + kk. -/
theorem wBlk_apply (c : Dev nD) (t : Fin cfg0.N) (j s : Fin 4) (hj : j.val = t.val / 4 % 4) (hs : s.val = t.val % 4)
    (q kk : Fin 1024) : wBlk m c t (ix2 q kk) = wArr m c (ix2 (outOf j q) (colOf s kk)) := by
  obtain ⟨-, -, e0, e1, -⟩ := index_facts t
  show iblk m c 1 t (ix2 q kk) = _
  unfold iblk
  rw [View.read_apply]
  show V m c main_arg1 _ = V m c main_arg1 _
  congr 1
  funext a
  apply Fin.ext
  match a with
  | ⟨0, _⟩ => show win0_1.index t (0 : Fin 2) * 1024 + 1 * q.val = j.val * 1024 + q.val; rw [e0, hj]; omega
  | ⟨1, _⟩ => show win0_1.index t (1 : Fin 2) * 1024 + 1 * kk.val = s.val * 1024 + kk.val; rw [e1, hs]; omega

/-- The scale block of point t reads S at rows 1024·j + q. -/
theorem sBlk_apply (c : Dev nD) (t : Fin cfg0.N) (j : Fin 4) (hj : j.val = t.val / 4 % 4)
    (q : Fin 1024) : sBlk m c t (ix2 q (0 : Fin 1)) = sArr m c (ix2 (outOf j q) (0 : Fin 1)) := by
  obtain ⟨-, -, -, -, e0, e1, -⟩ := index_facts t
  show iblk m c 2 t (ix2 q (0 : Fin 1)) = _
  unfold iblk
  rw [View.read_apply]
  show V m c main_arg2 _ = V m c main_arg2 _
  congr 1
  funext a
  apply Fin.ext
  match a with
  | ⟨0, _⟩ => show win0_2.index t (0 : Fin 2) * 1024 + 1 * q.val = j.val * 1024 + q.val; rw [e0, hj]; omega
  | ⟨1, _⟩ => show win0_2.index t (1 : Fin 2) * 1 + 1 * 0 = 0; rw [e1]

/-! ## One point's addend, and the accumulator after each point -/

/-- T(i, j, s)(p, q): what the point (i, j, s) adds to entry (p, q) of the accumulator. -/
def tileTerm (c : Dev nD) (i : Fin 8) (j s : Fin 4) (p q : Fin 1024) : EReal :=
  ∑ kk : Fin 1024, xArr m c (ix2 (rowOf i p) (colOf s kk))
    * (wArr m c (ix2 (outOf j q) (colOf s kk)) * sArr m c (ix2 (outOf j q) (0 : Fin 1)))

/-- The accumulator update of point t = (i, j, s), at entry (p, q): the earlier contents plus T(i, j, s)(p, q). -/
theorem point_update (c : Dev nD) (t : Fin cfg0.N) (i : Fin 8) (j s : Fin 4) (hi : i.val = t.val / 16)
    (hj : j.val = t.val / 4 % 4) (hs : s.val = t.val % 4) (acc : Vec Ideal S1024x1024 .f32) (p q : Fin 1024) :
    k0_pay2 (F := Ideal) (xBlk m c t) (wBlk m c t) (sBlk m c t) acc (ix2 p q) = acc (ix2 p q) + tileTerm m c i j s p q := by
  refine (update_apply (xBlk m c t) (wBlk m c t) (sBlk m c t) acc p q).trans ?_
  refine congrArg (acc (ix2 p q) + ·) (Finset.sum_congr rfl fun kk _ => ?_)
  rw [xBlk_apply m c t i s hi hs p kk, wBlk_apply m c t j s hj hs q kk, sBlk_apply m c t j hj q]

/-- The stretches s' ≤ n mod 4 of a run, summed. -/
def partialSum (T : Fin 4 → EReal) (n : Nat) : EReal := ∑ s : Fin 4, if s.val ≤ n % 4 then T s else 0

/-- At a run's first point the sum has the one stretch 0. -/
theorem partialSum_first (T : Fin 4 → EReal) (n : Nat) (h : n % 4 = 0) (s : Fin 4) (hs : s.val = n % 4) :
    0 + T s = partialSum T n := by
  unfold partialSum
  rw [h] at hs ⊢
  obtain rfl : s = 0 := Fin.ext hs
  rw [Fin.sum_univ_four]
  simp

/-- At a later point the sum gains the point's own stretch. -/
theorem partialSum_next (T : Fin 4 → EReal) (n : Nat) (h : n % 4 ≠ 0) (s : Fin 4) (hs : s.val = n % 4) :
    partialSum T (n - 1) + T s = partialSum T n := by
  unfold partialSum
  have h1 : (n - 1) % 4 = s.val - 1 := by omega
  rw [h1, ← hs, Fin.sum_univ_four, Fin.sum_univ_four]
  have hs0 : s.val ≠ 0 := by omega
  fin_cases s
  · exact absurd rfl hs0
  · simp
  · simp
  · simp

/-- At a run's last point the sum has all four stretches. -/
theorem partialSum_last (T : Fin 4 → EReal) (n : Nat) (h : n % 4 = 3) : partialSum T n = ∑ s : Fin 4, T s := by
  unfold partialSum
  exact Finset.sum_congr rfl fun s _ => if_pos (by have := s.isLt; omega)

/-- THE ACCUMULATOR AFTER POINT n holds, at entry (p, q), the stretches up to the point's own, summed. -/
theorem scratch_eq (c : Dev nD) : ∀ (n : Nat) (hn : n < cfg0.N) (i : Fin 8) (j : Fin 4), i.val = n / 16 → j.val = n / 4 % 4 →
    ∀ p q : Fin 1024, (outsAt0 m c n hn).2 (ix2 p q) = partialSum (fun s => tileTerm m c i j s p q) n := by
  intro n
  induction n using Nat.strong_induction_on with
  | _ n ih =>
    intro hn i j hi hj p q
    have hN : n < 128 := lt_of_lt_of_eq hn (show cfg0.N = 128 from N_0)
    let t : Fin cfg0.N := ⟨n, hn⟩
    have hs4 : n % 4 < 4 := Nat.mod_lt _ (by decide)
    by_cases h0 : n % 4 = 0
    · have h1 : ¬ n % 4 = 3 := by omega
      have e := outsAt0_A m c t h0 h1
      rw [show outsAt0 m c n hn = outsAt0 m c t.val t.isLt from rfl, e]
      dsimp only
      rw [scratch_first c (grid0.coords t) (ms0_0 t) (hs0_0 t) (ms0_1 t) (hs0_1 t) (ms0_2 t) (hs0_2 t) (ms0_3 t) (hs0_3 t)
        scM0_0 (Memref.isWhole_whole _) ((hcond0_0 t).mpr h0) (fun h => h1 ((hcond0_1 t).mp h))
        (iblk m c 0 t) (iblk m c 1 t) (iblk m c 2 t)]
      refine (point_update m c t i j ⟨n % 4, hs4⟩ hi hj rfl _ p q).trans ?_
      rw [cleared_apply]
      exact partialSum_first (fun s => tileTerm m c i j s p q) n h0 ⟨n % 4, hs4⟩ rfl
    · have hpos : n - 1 < n := by omega
      have hprev := ih (n - 1) hpos (Nat.lt_of_le_of_lt (Nat.sub_le _ _) hn) i j (by omega) (by omega) p q
      by_cases h1 : n % 4 = 3
      · have e := outsAt0_C m c t h0 h1
        rw [show outsAt0 m c n hn = outsAt0 m c t.val t.isLt from rfl, e]
        dsimp only
        rw [scratch_last c (grid0.coords t) (ms0_0 t) (hs0_0 t) (ms0_1 t) (hs0_1 t) (ms0_2 t) (hs0_2 t) (ms0_3 t) (hs0_3 t)
          scM0_0 (Memref.isWhole_whole _) (fun h => h0 ((hcond0_0 t).mp h)) ((hcond0_1 t).mpr h1)
          (iblk m c 0 t) (iblk m c 1 t) (iblk m c 2 t) _]
        refine (point_update m c t i j ⟨n % 4, hs4⟩ hi hj rfl _ p q).trans ?_
        rw [show (outsAt0 m c (t.val - 1) (Nat.lt_of_le_of_lt (Nat.sub_le _ _) t.isLt)).2 (ix2 p q)
          = partialSum (fun s => tileTerm m c i j s p q) (n - 1) from hprev]
        exact partialSum_next (fun s => tileTerm m c i j s p q) n h0 ⟨n % 4, hs4⟩ rfl
      · have e := outsAt0_B m c t h0 h1
        rw [show outsAt0 m c n hn = outsAt0 m c t.val t.isLt from rfl, e]
        dsimp only
        rw [scratch_middle c (grid0.coords t) (ms0_0 t) (hs0_0 t) (ms0_1 t) (hs0_1 t) (ms0_2 t) (hs0_2 t) (ms0_3 t) (hs0_3 t)
          scM0_0 (Memref.isWhole_whole _) (fun h => h0 ((hcond0_0 t).mp h)) (fun h => h1 ((hcond0_1 t).mp h))
          (iblk m c 0 t) (iblk m c 1 t) (iblk m c 2 t) _]
        refine (point_update m c t i j ⟨n % 4, hs4⟩ hi hj rfl _ p q).trans ?_
        rw [show (outsAt0 m c (t.val - 1) (Nat.lt_of_le_of_lt (Nat.sub_le _ _) t.isLt)).2 (ix2 p q)
          = partialSum (fun s => tileTerm m c i j s p q) (n - 1) from hprev]
        exact partialSum_next (fun s => tileTerm m c i j s p q) n h0 ⟨n % 4, hs4⟩ rfl

end Cert.KernelIdeal.Tile

end
-- ==== Proof.Spec.lean ====
/-
  The result both programs compute, as one function of the three argument arrays.

  For activations x of shape 4×2048×4096, weights w of shape 4096×4096 (one row per output feature) and row scales s of
  shape 4096×1, entry (b, r, o) of the result is

      Σ_k x(b, r, k) · (w(o, k) · s(o, 0)),

  a sum of 4096 products of extended reals: the linear layer x · (w scaled row by row by s)ᵀ.
-/
import Idealize.ShloMosaic.Lib.ValueIdx
import Idealize.ShloMosaic.PureOps.Ideal

noncomputable section

namespace ScaledLinear

open Idealize.ShloMosaic Idealize.ShloMosaic.ValueIdx

/-- The scaled linear layer, entry by entry. -/
def out (x : (⟨3, ![4, 2048, 4096]⟩ : Shape).Idx → EReal) (w : (⟨2, ![4096, 4096]⟩ : Shape).Idx → EReal)
    (s : (⟨2, ![4096, 1]⟩ : Shape).Idx → EReal) : (⟨3, ![4, 2048, 4096]⟩ : Shape).Idx → EReal :=
  fun j => ∑ k : Fin 4096, x (ix3 (j 0) (j 1) k) * (w (ix2 (j 2) k) * s (ix2 (j 2) (0 : Fin 1)))

theorem out_apply (x : (⟨3, ![4, 2048, 4096]⟩ : Shape).Idx → EReal) (w : (⟨2, ![4096, 4096]⟩ : Shape).Idx → EReal)
    (s : (⟨2, ![4096, 1]⟩ : Shape).Idx → EReal) (b : Fin 4) (r : Fin 2048) (o : Fin 4096) :
    out x w s (ix3 b r o) = ∑ k : Fin 4096, x (ix3 b r k) * (w (ix2 o k) * s (ix2 o (0 : Fin 1))) := rfl

end ScaledLinear

end
-- ==== Proof.Result.lean ====
/-
  The kernel's result array.

  At a run's last point the output block is a copy of the accumulator, which holds all four stretches summed: entry (p, q)
  of the block of point (i, j, 3) is entry (1024·i + p, 1024·j + q) of the product of the flattened activations
  (8192×4096) with the transposed, row-scaled weights. The 32 blocks written back tile the 8192×4096 output, so the array
  ends at that product. The activations reach the kernel flattened from 4×2048×4096 (row 2048·b + r is (b, r)), and the
  output is unflattened the same way: entry (b, r, o) of the result is the scaled linear layer of Spec.lean.
-/
import proofs.«141935_j51900384804990_1_alg».proof.Proof.Accumulate
import proofs.«141935_j51900384804990_1_alg».proof.Proof.Spec
import Idealize.ShloMosaic.Lib.StableHlo.Run

set_option maxRecDepth 16384

noncomputable section

namespace Cert.KernelIdeal.Tile

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The product on flattened rows: entry (r, o) is Σ_k X(r, k) · (W(o, k) · S(o, 0)). -/
def flatProduct (X : Vec Ideal S8192x4096 .f32) (W : Vec Ideal S4096x4096 .f32) (S : Vec Ideal S4096x1 .f32) :
    Vec Ideal S8192x4096 .f32 :=
  fun z => ∑ k : Fin 4096, X (ix2 (z 0) k) * (W (ix2 (z 1) k) * S (ix2 (z 1) (0 : Fin 1)))

/-- The four stretches of a run, summed, are the sum over all 4096 columns. -/
theorem full_sum (c : Dev nD) (i : Fin 8) (j : Fin 4) (p q : Fin 1024) :
    ∑ s : Fin 4, tileTerm m c i j s p q
      = flatProduct (xArr m c) (wArr m c) (sArr m c) (ix2 (rowOf i p) (outOf j q)) :=
  (ProductNT.sum_stretches 4 1024 (fun k : Fin 4096 =>
    xArr m c (ix2 (rowOf i p) k) * (wArr m c (ix2 (outOf j q) k) * sArr m c (ix2 (outOf j q) (0 : Fin 1))))).symm

/-- The output block of a run's last point, entry by entry. -/
theorem last_point_entry (c : Dev nD) (t : Fin cfg0.N) (h3 : t.val % 4 = 3) (y : S1024x1024.Idx) (z : S8192x4096.Idx)
    (hz0 : (z 0).val = t.val / 16 * 1024 + (y 0).val) (hz1 : (z 1).val = t.val / 4 % 4 * 1024 + (y 1).val) :
    (outsAt0 m c t.val t.isLt).1 y = flatProduct (xArr m c) (wArr m c) (sArr m c) z := by
  have hN : t.val < 128 := lt_of_lt_of_eq t.isLt (show cfg0.N = 128 from N_0)
  have h0 : ¬ t.val % 4 = 0 := by omega
  obtain ⟨p, q, rfl⟩ : ∃ (p q : Fin 1024), y = ix2 p q := ⟨y 0, y 1, eq_ix2 y⟩
  have e12 : (outsAt0 m c t.val t.isLt).1 = (outsAt0 m c t.val t.isLt).2 := by
    rw [outsAt0_C m c t h0 h3]
    dsimp only
    rw [output_last c (grid0.coords t) (ms0_0 t) (hs0_0 t) (ms0_1 t) (hs0_1 t) (ms0_2 t) (hs0_2 t) (ms0_3 t) (hs0_3 t)
        scM0_0 (Memref.isWhole_whole _) (fun h => h0 ((hcond0_0 t).mp h)) ((hcond0_1 t).mpr h3)
        (iblk m c 0 t) (iblk m c 1 t) (iblk m c 2 t) _,
      scratch_last c (grid0.coords t) (ms0_0 t) (hs0_0 t) (ms0_1 t) (hs0_1 t) (ms0_2 t) (hs0_2 t) (ms0_3 t) (hs0_3 t)
        scM0_0 (Memref.isWhole_whole _) (fun h => h0 ((hcond0_0 t).mp h)) ((hcond0_1 t).mpr h3)
        (iblk m c 0 t) (iblk m c 1 t) (iblk m c 2 t) _]
  have hz : z = ix2 (rowOf ⟨t.val / 16, by omega⟩ p) (outOf ⟨t.val / 4 % 4, by omega⟩ q) :=
    funext fun a => Fin.ext (by
      match a with
      | ⟨0, _⟩ => exact hz0
      | ⟨1, _⟩ => exact hz1)
  rw [e12, scratch_eq m c t.val t.isLt ⟨t.val / 16, by omega⟩ ⟨t.val / 4 % 4, by omega⟩ rfl rfl p q,
    partialSum_last _ _ h3, full_sum, hz]

/-- WHAT A RUN'S LAST POINT WRITES BACK is its block of the flattened product. -/
theorem flushed_eq (c : Dev nD) (t : Fin cfg0.N) (hf : (cfg0.win 3).flush t = true) :
    (dats m 0 c).flushed 3 t
      = ((cfg0.win 3).blk t).view.read (Elt Ideal) (flatProduct (xArr m c) (wArr m c) (sArr m c)) := by
  have h3 : t.val % 4 = 3 := (flush0_3 t).mp hf
  obtain ⟨-, -, -, -, -, -, e0, e1⟩ := index_facts t
  show (cfg0.win 3).cut (grid0.coords t) ((dats m 0 c).after 3 t) = _
  rw [after0_3]
  funext y
  refine last_point_entry m c t h3 y (((cfg0.win 3).blk t).view.emb y) ?_ ?_
  · show win0_3.index t (0 : Fin 2) * 1024 + 1 * (y 0).val = _
    rw [e0]; omega
  · show win0_3.index t (1 : Fin 2) * 1024 + 1 * (y 1).val = _
    rw [e1]; omega

/-- An index of the output is in point t's block iff each coordinate is in the block's range on its axis. -/
theorem mem_blk (t : Fin cfg0.N) (z : S8192x4096.Idx) :
    z ∈ ((cfg0.win 3).blk t).view.set ↔ ∀ a : Fin 2, win0_3.index t a * S1024x1024.size a ≤ (z a).val
      ∧ (z a).val < win0_3.index t a * S1024x1024.size a + S1024x1024.size a := by
  show z ∈ ((View.whole main_v1).slice (win0_3.rect t)).set ↔ _
  rw [View.set_slice_whole, Rect.mem_set_unit]
  exact Iff.rfl

/-- Every entry of the output lies in the block some run's last point writes back. -/
theorem covered (z : S8192x4096.Idx) :
    ∃ t : Fin cfg0.N, (cfg0.win 3).flush t = true ∧ z ∈ ((cfg0.win 3).blk t).view.set := by
  have h0 : (z 0).val < 8192 := (z 0).isLt
  have h1 : (z 1).val < 4096 := (z 1).isLt
  have hn : (z 0).val / 1024 * 16 + (z 1).val / 1024 * 4 + 3 < cfg0.N := by
    rw [show cfg0.N = 128 from N_0]; omega
  refine ⟨⟨(z 0).val / 1024 * 16 + (z 1).val / 1024 * 4 + 3, hn⟩, (flush0_3 _).mpr (by
    show ((z 0).val / 1024 * 16 + (z 1).val / 1024 * 4 + 3) % 4 = 3; omega), ?_⟩
  rw [mem_blk]
  obtain ⟨-, -, -, -, -, -, e0, e1⟩ := index_facts ⟨(z 0).val / 1024 * 16 + (z 1).val / 1024 * 4 + 3, hn⟩
  intro a
  match a with
  | ⟨0, _⟩ =>
    show win0_3.index _ (0 : Fin 2) * 1024 ≤ (z 0).val ∧ (z 0).val < win0_3.index _ (0 : Fin 2) * 1024 + 1024
    rw [e0]
    show ((z 0).val / 1024 * 16 + (z 1).val / 1024 * 4 + 3) / 16 * 1024 ≤ (z 0).val
      ∧ (z 0).val < ((z 0).val / 1024 * 16 + (z 1).val / 1024 * 4 + 3) / 16 * 1024 + 1024
    omega
  | ⟨1, _⟩ =>
    show win0_3.index _ (1 : Fin 2) * 1024 ≤ (z 1).val ∧ (z 1).val < win0_3.index _ (1 : Fin 2) * 1024 + 1024
    rw [e1]
    show ((z 0).val / 1024 * 16 + (z 1).val / 1024 * 4 + 3) / 4 % 4 * 1024 ≤ (z 1).val
      ∧ (z 1).val < ((z 0).val / 1024 * 16 + (z 1).val / 1024 * 4 + 3) / 4 % 4 * 1024 + 1024
    omega

/-- THE OUTPUT ARRAY after the grid: the flattened product. -/
theorem final_eq (c : Dev nD) :
    (dats m 0 c).arrAt 3 cfg0.N = flatProduct (xArr m c) (wArr m c) (sArr m c) :=
  (dats m 0 c).arrAt_eq_of_cover 3 (flatProduct (xArr m c) (wArr m c) (sArr m c)) (flushed_eq m c) covered

/-- The kernel finds the activations flattened: the host's reshape of the first argument. -/
theorem xArr_eq (c : Dev nD) :
    xArr m c = shapeCast S8192x4096 (m ((c : Thread nD τ).loc main_arg0)) Facts₀.shapeCasts_S4x2048x4096_S8192x4096 := by
  show StableHlo.after hostOps0 (fun b => m (c, b)) (Proc.devRef .tc main_v0) = _
  after_results
  rfl

/-- The flattened activations at (2048·b + r, k) are the activations at (b, r, k). -/
theorem xArr_apply (c : Dev nD) (b : Fin 4) (r : Fin 2048) (k : Fin 4096) (z : Fin 8192) (hz : z.val = b.val * 2048 + r.val) :
    xArr m c (ix2 z k) = m ((c : Thread nD τ).loc main_arg0) (ix3 b r k) := by
  rw [xArr_eq]
  exact shapeCast_apply _ Facts₀.shapeCasts_S4x2048x4096_S8192x4096 (ix2 z k) (ix3 b r k) (by
    rw [Shape.rowMajor_val_three, Shape.rowMajor_val_two]
    show (b.val * 2048 + r.val) * 4096 + k.val = z.val * 4096 + k.val
    rw [hz])

/-- Row 2048·b + r of the flattened product, at column o, is entry (b, r, o) of the scaled linear layer. -/
theorem flatProduct_apply (c : Dev nD) (b : Fin 4) (r : Fin 2048) (o : Fin 4096) (z : Fin 8192)
    (hz : z.val = b.val * 2048 + r.val) :
    flatProduct (xArr m c) (wArr m c) (sArr m c) (ix2 z o)
      = ScaledLinear.out (m ((c : Thread nD τ).loc main_arg0)) (m ((c : Thread nD τ).loc main_arg1))
          (m ((c : Thread nD τ).loc main_arg2)) (ix3 b r o) := by
  rw [ScaledLinear.out_apply]
  unfold flatProduct
  refine Finset.sum_congr rfl fun k _ => ?_
  show xArr m c (ix2 z k) * (wArr m c (ix2 o k) * sArr m c (ix2 o (0 : Fin 1))) = _
  rw [xArr_apply m c b r k z hz,
    show wArr m c = m ((c : Thread nD τ).loc main_arg1) from V_main_arg1 m c,
    show sArr m c = m ((c : Thread nD τ).loc main_arg2) from V_main_arg2 m c]

/-- THE RESULT: the host's reshape of the output array is the scaled linear layer of the three arguments. -/
theorem tail_eq (c : Dev nD) :
    Pipeline.afterTail₀ cfgs (dats m) 0 (V0 m) [hostOps1] c main_v2
      = ScaledLinear.out (m ((c : Thread nD τ).loc main_arg0)) (m ((c : Thread nD τ).loc main_arg1))
          (m ((c : Thread nD τ).loc main_arg2)) := by
  unfold Pipeline.afterTail₀
  show StableHlo.after hostOps1 _ (Proc.devRef .tc main_v2) = _
  after_results
  have hv1 : Pipeline.withArrays (cfgs 0).spec c (V0 m c) (fun w => (dats m 0 c).arrAt w (cfgs 0).N) (Proc.devRef .tc main_v1)
      = flatProduct (xArr m c) (wArr m c) (sArr m c) :=
    (Pipeline.withArrays_arr spec0 launch0.win.arr_inj c _ _ 3).trans (final_eq m c)
  funext i
  obtain ⟨b, r, o, rfl⟩ : ∃ (b : Fin 4) (r : Fin 2048) (o : Fin 4096), i = ix3 b r o := ⟨i 0, i 1, i 2, eq_ix3 i⟩
  show shapeCast S4x2048x4096 (Pipeline.withArrays (cfgs 0).spec c (V0 m c) (fun w => (dats m 0 c).arrAt w (cfgs 0).N)
    (Proc.devRef .tc main_v1)) Facts₀.shapeCasts_S8192x4096_S4x2048x4096 (ix3 b r o) = _
  rw [hv1]
  have hz : b.val * 2048 + r.val < 8192 := by have := b.isLt; have := r.isLt; omega
  refine (shapeCast_apply _ Facts₀.shapeCasts_S8192x4096_S4x2048x4096 (ix3 b r o) (ix2 ⟨b.val * 2048 + r.val, hz⟩ o) (by
    rw [Shape.rowMajor_val_three, Shape.rowMajor_val_two]; rfl)).trans ?_
  exact flatProduct_apply m c b r o ⟨b.val * 2048 + r.val, hz⟩ rfl

/-- THE KERNEL'S RUN, READ: every weakly fair execution ends with the result at the scaled linear layer of the argument
    arrays and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v2)
          = ScaledLinear.out (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Tile

end
-- ==== Proof.Reference.lean ====
/-
  The reference, read at an index.

  The reference scales each weight row by its scale (a broadcast of the 4096×1 column along the rows, then a product entry
  by entry) and contracts the last axis of the activations with the second axis of the scaled weights. Read at (b, r, o)
  that is Σ_k x(b, r, k) · (w(o, k) · s(o, 0)): the scaled linear layer of Spec.lean.
-/
import proofs.«141935_j51900384804990_1_alg».proof.Proof.Gen.ReferenceIdeal.Run
import proofs.«141935_j51900384804990_1_alg».proof.Proof.Gen.ReferenceIdeal.Read
import proofs.«141935_j51900384804990_1_alg».proof.Proof.Spec
import Idealize.ShloMosaic.Lib.ValueIdx

noncomputable section

namespace Cert.ReferenceIdeal.AtIndex

open Idealize.ShloMosaic Idealize.ShloMosaic.ValueIdx
open Cert.ReferenceIdeal Cert.ReferenceIdeal.Gen Cert.ReferenceIdeal.Read

/-- The reference's result is the scaled linear layer of its three arguments. -/
theorem result_eq (x : (⟨S4x2048x4096, .f32⟩ : BufTy).Contents (Elt Ideal)) (w : (⟨S4096x4096, .f32⟩ : BufTy).Contents (Elt Ideal))
    (s : (⟨S4096x1, .f32⟩ : BufTy).Contents (Elt Ideal)) :
    val_main_v2 (F := Ideal) x w s = ScaledLinear.out x w s := by
  funext i
  obtain ⟨b, r, o, rfl⟩ : ∃ (b : Fin 4) (r : Fin 2048) (o : Fin 4096), i = ix3 b r o := ⟨i 0, i 1, i 2, eq_ix3 i⟩
  rw [val_main_v2_apply, ScaledLinear.out_apply]
  refine Finset.sum_congr rfl fun k _ => ?_
  have el : lidx_main_v2 (ix3 b r o) k = ix3 b r k :=
    funext fun a => Fin.ext (by match a with | ⟨0, _⟩ => rfl | ⟨1, _⟩ => rfl | ⟨2, _⟩ => rfl)
  have er : ridx_main_v2 (ix3 b r o) k = ix2 o k :=
    funext fun a => Fin.ext (by match a with | ⟨0, _⟩ => rfl | ⟨1, _⟩ => rfl)
  have es : idx_main_v0 (ix2 o k) = ix2 o (0 : Fin 1) :=
    funext fun a => Fin.ext (by match a with | ⟨0, _⟩ => rfl | ⟨1, _⟩ => rfl)
  rw [el, er, val_main_v1_apply, val_main_v0_apply, es]
  rfl

end Cert.ReferenceIdeal.AtIndex

end
-- ==== Proof.lean ====
/-
  A row-scaled linear layer, tiled, against its one-line reference.

  Both programs take activations x (4×2048×4096), weights w (4096×4096, one row per output feature) and row scales s
  (4096×1), and both end with, at (b, r, o), the sum over k of x(b, r, k) · (w(o, k) · s(o, 0)) (Proof/Spec.lean).

  The reference scales the weight rows and contracts once over all 4096 columns (Proof/Reference.lean). The kernel
  flattens the activations to 8192×4096 and walks a grid of 8 × 4 × 4 points: for each 1024×1024 output tile it clears an
  accumulator, adds the products of four 1024-column stretches one point after another (scaling each weight tile's rows by
  their scales and narrowing both factors to bf16 on the way, which is the identity over the extended reals), and writes
  the accumulator out at the fourth (Proof/Pieces.lean, Proof/TileProduct.lean, Proof/Accumulate.lean); the 32 tiles cover
  the output, which the host then unflattens (Proof/Result.lean). The two sides differ only in how the 4096-term sum is
  grouped, and addition of extended reals is commutative and associative, so the finiteness of the inputs is never used.

  The idealizing pass rewrote nothing, so the kernel's idealization is its own text read over the extended reals.
-/
import proofs.«141935_j51900384804990_1_alg».proof.Defs
import proofs.«141935_j51900384804990_1_alg».proof.Proof.Gen.Kernel
import proofs.«141935_j51900384804990_1_alg».proof.Proof.Gen.Kernel.Frame
import proofs.«141935_j51900384804990_1_alg».proof.Proof.Gen.KernelIdeal
import proofs.«141935_j51900384804990_1_alg».proof.Proof.Gen.KernelIdeal.Frame
import proofs.«141935_j51900384804990_1_alg».proof.Proof.Gen.ReferenceIdeal
import proofs.«141935_j51900384804990_1_alg».proof.Proof.Gen.ReferenceIdeal.Run
import proofs.«141935_j51900384804990_1_alg».proof.Proof.Gen.ReferenceIdeal.Read
import proofs.«141935_j51900384804990_1_alg».proof.Proof.Gen.Pre_finite_inputs
import proofs.«141935_j51900384804990_1_alg».proof.Proof.Result
import proofs.«141935_j51900384804990_1_alg».proof.Proof.Reference
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is three host operations; its run leaves the arguments alone. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Over the extended reals both programs end at the scaled linear layer of arguments that agree. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.AtIndex.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
